-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x2048x2048 .f32) (main_arg1 : FVec F S8192x2048 .f32) (main_arg2 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S8192 : Shape := ⟨1, ![8192]⟩
abbrev S1x8192 : Shape := ⟨2, ![1, 8192]⟩
abbrev S8192x8192 : Shape := ⟨2, ![8192, 8192]⟩
abbrev S1024x2048 : Shape := ⟨2, ![1024, 2048]⟩
abbrev S1x1024 : Shape := ⟨2, ![1, 1024]⟩
abbrev S1024x1024 : Shape := ⟨2, ![1024, 1024]⟩
abbrev S4x2048x8192 : Shape := ⟨3, ![4, 2048, 8192]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S1x8192, .f32⟩
  | .hbm, ⟨5, _⟩ => ⟨S8192x8192, .f32⟩
  | .hbm, ⟨6, _⟩ => ⟨S4x2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x2048_S8192x2048 : S4x2048x2048.ShapeCasts S8192x2048
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S8192x8192_S4x2048x8192 : S8192x8192.ShapeCasts S4x2048x8192
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .f32 = 32 ∨ (Rect.block (s := S8192x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S4x2048x8192 : Shape := ⟨3, ![4, 2048, 8192]⟩
abbrev S_ : Shape := ⟨0, ![]⟩
abbrev S1x1x8192 : Shape := ⟨3, ![1, 1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S4x2048x8192, .f32⟩
  | .hbm, ⟨4, _⟩ => ⟨S_, .f32⟩
  | .hbm, ⟨5, _⟩ => ⟨S4x2048x8192, .f32⟩
  | .hbm, ⟨6, _⟩ => ⟨S4x2048x8192, .f32⟩
  | .hbm, ⟨7, _⟩ => ⟨S1x1x8192, .f32⟩
  | .hbm, ⟨8, _⟩ => ⟨S4x2048x8192, .f32⟩
  | .hbm, ⟨9, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Linear.lean ====
/-
  The mathematics both programs compute, stated once over literal shapes and extended reals.

  A linear layer with a dequantisation scale: for a row `r` of the input and an output feature `o`,
      out[r, o] = (Σ_k x[r, k] · w[o, k]) · 2⁻⁷ + bias[o],
  the contraction running over the 2048 input features. The kernel works on the input with its batch and
  sequence axes flattened into 8192 rows (`flat`); the reference keeps the three axes (`lin`). Flattening is
  row-major, so row `a · 2048 + s` of the flat input is row `(a, s)` of the original, and the flat result read
  back at three axes is `lin` (`lin_of_flat`). No law of the extended reals is used beyond reading both
  sides at an index: the two sums have the same terms in the same order.
-/
import Idealize.ShloMosaic.Lib.ValueIdx
import Idealize.ShloMosaic.Lib.ValueLayout
import Idealize.ShloMosaic.Lib.Pipeline.Value

noncomputable section

open scoped BigOperators

namespace Cert.Linear

open Idealize.ShloMosaic Idealize.ShloMosaic.ValueIdx

/-- The scale 2⁻⁷ = 0.0078125, as the f32 word both programs spell; it is never evaluated. -/
abbrev scale : EReal := Ideal.ofBits .f32 0x3C000000#32

/-- The input with batch and sequence axes, and flattened to rows. -/
abbrev SX3 : Shape := ⟨3, ![4, 2048, 2048]⟩
abbrev SX2 : Shape := ⟨2, ![8192, 2048]⟩
/-- The weight: one row of 2048 input features per output feature. -/
abbrev SW : Shape := ⟨2, ![8192, 2048]⟩
/-- The bias as a vector, and as a one-row matrix. -/
abbrev SB1 : Shape := ⟨1, ![8192]⟩
abbrev SB2 : Shape := ⟨2, ![1, 8192]⟩
/-- The result, flat and with batch and sequence axes. -/
abbrev SO2 : Shape := ⟨2, ![8192, 8192]⟩
abbrev SO3 : Shape := ⟨3, ![4, 2048, 8192]⟩

/-- One entry of the flat result: row `r` against output feature `o`. -/
def flatAt (x : SX2.Idx → EReal) (w : SW.Idx → EReal) (b : SB2.Idx → EReal) (r : Fin 8192) (o : Fin 8192) : EReal :=
  (∑ k : Fin 2048, x (ix2 r k) * w (ix2 o k)) * scale + b (ix2 (0 : Fin 1) o)

/-- The flat result, 8192 rows by 8192 output features. -/
def flat (x : SX2.Idx → EReal) (w : SW.Idx → EReal) (b : SB2.Idx → EReal) : SO2.Idx → EReal :=
  fun i => flatAt x w b (i 0) (i 1)

/-- One entry of the result with batch and sequence axes. -/
def linAt (x : SX3.Idx → EReal) (w : SW.Idx → EReal) (b : SB1.Idx → EReal) (a : Fin 4) (s : Fin 2048) (o : Fin 8192) : EReal :=
  (∑ k : Fin 2048, x (ix3 a s k) * w (ix2 o k)) * scale + b (ix1 o)

/-- The result with batch and sequence axes. -/
def lin (x : SX3.Idx → EReal) (w : SW.Idx → EReal) (b : SB1.Idx → EReal) : SO3.Idx → EReal :=
  fun i => linAt x w b (i 0) (i 1) (i 2)

/-- The flat result of the flattened input and the bias as a one-row matrix, read back at three axes, is `lin`:
    entry `(a, s, o)` is flat entry `(a · 2048 + s, o)`, whose row of the flattened input is row `(a, s)` of the input. -/
theorem lin_of_flat (x : SX3.Idx → EReal) (w : SW.Idx → EReal) (b : SB1.Idx → EReal)
    (hx : SX3.ShapeCasts SX2) (hb : SB1.ShapeCasts SB2) (ho : SO2.ShapeCasts SO3) :
    shapeCast SO3 (flat (shapeCast SX2 x hx) w (shapeCast SB2 b hb)) ho = lin x w b := by
  funext i
  obtain ⟨a, s, o, rfl⟩ : ∃ (a : Fin 4) (s : Fin 2048) (o : Fin 8192), i = ix3 a s o := ⟨i 0, i 1, i 2, eq_ix3 i⟩
  have hr : a.val * 2048 + s.val < 8192 := by omega
  rw [shapeCast_apply _ ho (ix3 a s o) (ix2 (⟨a.val * 2048 + s.val, hr⟩ : Fin 8192) o) (by
    rw [Shape.rowMajor_val_two, Shape.rowMajor_val_three]; rfl)]
  show (∑ k : Fin 2048, shapeCast SX2 x hx (ix2 (⟨a.val * 2048 + s.val, hr⟩ : Fin 8192) k) * w (ix2 o k)) * scale
      + shapeCast SB2 b hb (ix2 (0 : Fin 1) o) = (∑ k : Fin 2048, x (ix3 a s k) * w (ix2 o k)) * scale + b (ix1 o)
  rw [shapeCast_a_1a_apply]
  refine congrArg (fun z => z * scale + b (ix1 o)) (Finset.sum_congr rfl fun k _ => ?_)
  rw [shapeCast_apply x hx (ix2 (⟨a.val * 2048 + s.val, hr⟩ : Fin 8192) k) (ix3 a s k) (by
    rw [Shape.rowMajor_val_two, Shape.rowMajor_val_three]; rfl)]

end Cert.Linear

end
-- ==== Proof.Body.lean ====
/-
  The kernel body's arithmetic, read at one entry of its 1024 × 1024 output block.

  The body loads a 1024 × 2048 block of input rows, a 1024 × 2048 block of weight rows and a 1 × 1024 block of
  the bias, narrows the two matrix blocks to bf16 (the identity on extended reals), contracts them over their
  second axes into a zero accumulator, multiplies by the scale and adds the bias row broadcast down the rows.
  So entry `(p, q)` of the block is (Σ_k rows[p, k] · weights[q, k]) · 2⁻⁷ + bias[0, q].
-/
import proofs.«114881_j12128987644267_1_alg».proof.Proof.Gen.KernelIdeal.Skeleton
import proofs.«114881_j12128987644267_1_alg».proof.Proof.Linear
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The contraction's operand indices, axis by axis

At output entry `i` and contraction position `q` the left operand is read at `(i 0, q)` and the right at `(i 1, q)`:
both operands are contracted over their second axis. -/

theorem lhs_row (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_col (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_row (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_col (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product block at an entry: the sum over the 2048 shared features of row `p` of the left block times row `q` of
    the right block. -/
theorem product_apply (l r : FVec Ideal S1024x2048 .bf16) (p q : Fin 1024) :
    matmul dot_S1024x2048_S1024x2048_S1024x1024_1_1_0_0_n_n none l r (constant (F := Ideal) S1024x1024 .f32 0x00000000#32) (ix2 p q)
      = ∑ k : Fin 2048, l (ix2 p k) * r (ix2 q k) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_row _ _
    | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_row _ _
    | ⟨1, _⟩ => exact (rhs_col _ _).trans hk)
  rw [el, er]

/-- The stored value at entry `(p, q)` of the output block, from the three loaded blocks. -/
theorem pay_apply (x0 x1 : Vec Ideal S1024x2048 .f32) (x2 : Vec Ideal S1x1024 .f32) (p q : Fin 1024) :
    k0_pay1 (F := Ideal) x0 x1 x2 (ix2 p q)
      = (∑ k : Fin 2048, x0 (ix2 p k) * x1 (ix2 q k)) * Cert.Linear.scale + x2 (ix2 (0 : Fin 1) q) := by
  unfold k0_pay1
  rw [addf_apply, mulf_apply, product_apply, broadcast_apply, broadcastTo_1b_ab_apply, shapeCast_self, shapeCast_self]
  rfl

end Cert.KernelIdeal.Body

end
-- ==== Proof.Blocks.lean ====
/-
  From the kernel's blocks to its whole output array.

  The grid has 8 × 8 points. At a point whose output block index is `(bi, bj)` the pipeline hands the body rows
  `bi · 1024 …` of the flattened input, rows `bj · 1024 …` of the weight and columns `bj · 1024 …` of the bias row,
  and writes the body's 1024 × 1024 result back as block `(bi, bj)` of the output. Entry `(p, q)` of that block is the
  flat result at `(bi · 1024 + p, bj · 1024 + q)`; the 64 blocks tile the 8192 × 8192 output, so after the run the
  output array is the flat result everywhere.
-/
import proofs.«114881_j12128987644267_1_alg».proof.Proof.Gen.KernelIdeal.Frame
import proofs.«114881_j12128987644267_1_alg».proof.Proof.Body
import proofs.«114881_j12128987644267_1_alg».proof.Proof.Linear
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The zero offsets of a whole-block access, however they are spelt. -/
theorem zero_offsets : (![0, 0] : Fin 2 → Nat) = fun _ => 0 := funext fun a => by fin_cases a <;> rfl

/-- One entry of the body's result, when the three loaded blocks are the blocks `bi`, `bj`, `bj` of three whole
    arrays: it is the flat result of those arrays at row `bi · 1024 + p`, column `bj · 1024 + q`. -/
theorem block_entry (X W : Vec Ideal S8192x2048 .f32) (B : Vec Ideal S1x8192 .f32)
    (x0 x1 : Vec Ideal S1024x2048 .f32) (x2 : Vec Ideal S1x1024 .f32) (r o : Fin 8192) (j : S1024x1024.Idx)
    (h0 : ∀ k : Fin 2048, x0 (ix2 (j 0) k) = X (ix2 r k))
    (h1 : ∀ k : Fin 2048, x1 (ix2 (j 1) k) = W (ix2 o k))
    (h2 : x2 (ix2 (0 : Fin 1) (j 1)) = B (ix2 (0 : Fin 1) o)) :
    k0_pay1 (F := Ideal) x0 x1 x2 j = Cert.Linear.flatAt X W B r o := by
  obtain ⟨p, q, rfl⟩ : ∃ (p q : Fin 1024), j = ix2 p q := ⟨j 0, j 1, eq_ix2 j⟩
  rw [Cert.KernelIdeal.Body.pay_apply]
  unfold Cert.Linear.flatAt
  rw [h2]
  exact congrArg (fun z => z * Cert.Linear.scale + B (ix2 (0 : Fin 1) o)) (Finset.sum_congr rfl fun k _ => by rw [h0 k, h1 k])

/-- The printed index maps, decided over the 64 grid points: the input rows follow the output's block row, the weight
    rows and the bias columns follow the output's block column, and both block indices run over 0 … 7. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 output blocks is some grid point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What grid point `t` writes back is block `t` of the flat result of the arrays as the region finds them. -/
theorem flushed_eq (c : Dev nD) (t : Fin cfg0.N) :
    (dats m 0 c).flushed 3 t = ((cfg0.win 3).blk t).view.read (Elt Ideal)
      (Cert.Linear.flat (V m c main_v0) (V m c main_arg1) (V m c main_v1)) := by
  show (cfg0.win 3).cut (grid0.coords t) ((dats m 0 c).after 3 t) = _
  rw [after0_3]
  unfold out0_3
  rw [View.canon_unit_zero zero_offsets]
  simp only [View.ld_unit_zero (S := S1024x2048) zero_offsets, View.ld_unit_zero (S := S1x1024) zero_offsets]
  obtain ⟨e0, e1, e2, e3, e4, e5, e6, e7⟩ := idx_facts t
  funext j
  show k0_pay1 (F := Ideal) (iblk m c 0 t) (iblk m c 1 t) (iblk m c 2 t) j
    = Cert.Linear.flatAt (V m c main_v0) (V m c main_arg1) (V m c main_v1)
        ((((cfg0.win 3).blk t).view.emb j) 0) ((((cfg0.win 3).blk t).view.emb j) 1)
  refine block_entry (V m c main_v0) (V m c main_arg1) (V m c main_v1) (iblk m c 0 t) (iblk m c 1 t) (iblk m c 2 t)
    ((((cfg0.win 3).blk t).view.emb j) 0) ((((cfg0.win 3).blk t).view.emb j) 1) j (fun k => ?_) (fun k => ?_) ?_
  · show V m c main_v0 (((cfg0.win 0).blk t).view.emb (ix2 (j 0) k)) = V m c main_v0 (ix2 ((((cfg0.win 3).blk t).view.emb j) 0) k)
    refine congrArg (V m c main_v0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2048 + 1 * k.val = k.val; omega
  · show V m c main_arg1 (((cfg0.win 1).blk t).view.emb (ix2 (j 1) k)) = V m c main_arg1 (ix2 ((((cfg0.win 3).blk t).view.emb j) 1) k)
    refine congrArg (V m c main_arg1) (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 2048 + 1 * k.val = k.val; omega
  · show V m c main_v1 (((cfg0.win 2).blk t).view.emb (ix2 (0 : Fin 1) (j 1))) = V m c main_v1 (ix2 (0 : Fin 1) ((((cfg0.win 3).blk t).view.emb j) 1))
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An entry of the output array lies in point `t`'s block exactly when each coordinate lies in the block's range. -/
theorem mem_blk (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- The 64 blocks tile the output: entry `(r, o)` lies in the block `(r / 1024, o / 1024)`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run is the flat result of the arrays as the region finds them. -/
theorem final (c : Dev nD) :
    (dats m 0 c).arrAt 3 cfg0.N = Cert.Linear.flat (V m c main_v0) (V m c main_arg1) (V m c main_v1) :=
  (dats m 0 c).arrAt_eq_of_cover 3 _ (fun t _ => flushed_eq m c t) cover

end Cert.KernelIdeal.Blocks

end
-- ==== Proof.Program.lean ====
/-
  The whole kernel program's result.

  Around its one region the program flattens the input's batch and sequence axes (row-major), turns the bias into a
  one-row matrix, and afterwards reads the 8192 × 8192 output back at three axes. The region leaves the flat result of
  the flattened input, the weight and the bias row in the output array (`Blocks.final`), so the program's result is
  `Cert.Linear.lin` of its three arguments (`Cert.Linear.lin_of_flat`), and the arguments end as they were launched.
-/
import proofs.«114881_j12128987644267_1_alg».proof.Proof.Gen.KernelIdeal.Frame
import proofs.«114881_j12128987644267_1_alg».proof.Proof.Blocks
import proofs.«114881_j12128987644267_1_alg».proof.Proof.Linear
import Idealize.ShloMosaic.Lib.StableHlo.Run

set_option maxRecDepth 16384

noncomputable section

namespace Cert.KernelIdeal.Program

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The region finds the input with its batch and sequence axes flattened into rows. -/
theorem entry_rows (c : Dev nD) :
    (V m c main_v0 : S8192x2048.Idx → EReal)
      = shapeCast S8192x2048 (m ((c : Thread nD τ).loc main_arg0)) shapeCasts_S4x2048x2048_S8192x2048 := by
  show StableHlo.after hostOps0 (fun b => m (c, b)) (Proc.devRef .tc main_v0) = _
  after_results
  rfl

/-- The region finds the bias as a one-row matrix. -/
theorem entry_bias (c : Dev nD) :
    (V m c main_v1 : S1x8192.Idx → EReal)
      = shapeCast S1x8192 (m ((c : Thread nD τ).loc main_arg2)) shapeCasts_S8192_S1x8192 := by
  show StableHlo.after hostOps0 (fun b => m (c, b)) (Proc.devRef .tc main_v1) = _
  after_results
  rfl

/-- The program's result buffer after the line that follows the region: the output array read back at three axes. -/
theorem result_eq (c : Dev nD) :
    (Pipeline.afterTail₀ cfgs (dats m) 0 (V0 m) [hostOps1] c main_v3 : S4x2048x8192.Idx → EReal)
      = Cert.Linear.lin (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = Cert.Linear.flat (V m c main_v0) (V m c main_arg1) (V m c main_v1) :=
    (Pipeline.withArrays_arr spec0 launch0.win.arr_inj c _ _ 3).trans (Cert.KernelIdeal.Blocks.final m c)
  show shapeCast S4x2048x8192 (Pipeline.withArrays (cfgs 0).spec c (V0 m c) (fun w => (dats m 0 c).arrAt w (cfgs 0).N)
      (Proc.devRef .tc main_v2)) shapeCasts_S8192x8192_S4x2048x8192 = _
  rw [hw, entry_rows, entry_bias, V_main_arg1]
  exact Cert.Linear.lin_of_flat _ _ _ _ _ _

/-- Every weakly fair execution of the kernel program ends with its result at `lin` of the arguments, and the arguments
    as they were launched. -/
theorem run : θ_run defs (onTc (τ := τ) (main (F := Ideal))) ⟨m, fun _ => 0, ρ⟩ fun r => ∀ c : Dev nD,
      r.2.mem ((c : Thread nD τ).loc main_v3)
        = Cert.Linear.lin (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Program

end
-- ==== Proof.Reference.lean ====
/-
  The reference's result, read at an entry, is `Cert.Linear.lin` of its three arguments.

  The reference contracts the input's last axis against the weight's last axis, multiplies every entry by the
  scale and adds the bias along the last axis. Entry `(a, s, o)` is therefore
  (Σ_k x[a, s, k] · w[o, k]) · 2⁻⁷ + bias[o]: the generated per-operation reading lemmas give each stage at an
  index, and the index functions they compose are the coordinates `(a, s, k)`, `(o, k)` and `o`.
-/
import proofs.«114881_j12128987644267_1_alg».proof.Proof.Gen.ReferenceIdeal.Read
import proofs.«114881_j12128987644267_1_alg».proof.Proof.Linear

noncomputable section

open scoped BigOperators

namespace Cert.ReferenceIdeal.RefValue

open Cert.ReferenceIdeal Cert.ReferenceIdeal.Read Idealize.ShloMosaic Idealize.ShloMosaic.ValueIdx

/-- The reference's last stage is `lin`, entry by entry. -/
theorem result_eq_lin (x0 : (⟨S4x2048x2048, .f32⟩ : BufTy).Contents (Elt Ideal)) (x1 : (⟨S8192x2048, .f32⟩ : BufTy).Contents (Elt Ideal))
    (x2 : (⟨S8192, .f32⟩ : BufTy).Contents (Elt Ideal)) :
    val_main_v5 (F := Ideal) x0 x1 x2 = Cert.Linear.lin x0 x1 x2 := by
  funext i
  obtain ⟨a, s, o, rfl⟩ : ∃ (a : Fin 4) (s : Fin 2048) (o : Fin 8192), i = ix3 a s o := ⟨i 0, i 1, i 2, eq_ix3 i⟩
  have el : ∀ k : Fin 2048, lidx_main_v0 (ix3 a s o) k = ix3 a s k := fun k => funext fun d => Fin.ext (by
    match d with | ⟨0, _⟩ => rfl | ⟨1, _⟩ => rfl | ⟨2, _⟩ => rfl)
  have er : ∀ k : Fin 2048, ridx_main_v0 (ix3 a s o) k = ix2 o k := fun k => funext fun d => Fin.ext (by
    match d with | ⟨0, _⟩ => rfl | ⟨1, _⟩ => rfl)
  have eb : idx_main_v3 (idx_main_v4 (ix3 a s o)) = ix1 o := funext fun d => Fin.ext (by
    match d with | ⟨0, _⟩ => rfl)
  rw [val_main_v5_apply, val_main_v2_apply, val_main_v0_apply, val_main_v1_apply, val_main_cst_apply, val_main_v4_apply,
    val_main_v3_apply]
  simp only [el, er, eb]
  rfl

end Cert.ReferenceIdeal.RefValue

end
-- ==== Proof.lean ====
/-
  A scaled linear layer against its einsum reference, over the extended reals.

  Both programs compute, for batch index `a`, sequence position `s` and output feature `o`,
      out[a, s, o] = (Σ_k x[a, s, k] · w[o, k]) · 2⁻⁷ + bias[o],
  the sum running over the 2048 input features (`Cert.Linear.lin`, Proof/Linear.lean).

  The kernel flattens batch and sequence into 8192 rows and tiles the 8192 × 8192 flat result into 8 × 8 blocks of
  1024 × 1024; each block is a full-length contraction of 1024 input rows against 1024 weight rows, scaled, plus the bias
  columns of that block (Proof/Body.lean reads one entry of a block, Proof/Blocks.lean assembles the blocks into the whole
  array, Proof/Program.lean undoes the flattening). Narrowing the operands to bf16 before the product is the identity on
  extended reals. The reference contracts the same axes with the three axes kept, scales and adds the bias
  (Proof/Reference.lean). The two sums have the same terms in the same order and the same scale word, so no algebraic law
  and no finiteness of the inputs is needed: the results agree entry by entry for all extended-real inputs.

  The kernel read over the extended reals is the kernel's own text, operation for operation, so the claim relating the
  two is trivial.
-/
import proofs.«114881_j12128987644267_1_alg».proof.Defs
import proofs.«114881_j12128987644267_1_alg».proof.Proof.Gen.Kernel
import proofs.«114881_j12128987644267_1_alg».proof.Proof.Gen.Kernel.Skeleton
import proofs.«114881_j12128987644267_1_alg».proof.Proof.Gen.Kernel.Launch
import proofs.«114881_j12128987644267_1_alg».proof.Proof.Gen.Kernel.Points
import proofs.«114881_j12128987644267_1_alg».proof.Proof.Gen.Kernel.Frame
import proofs.«114881_j12128987644267_1_alg».proof.Proof.Gen.KernelIdeal
import proofs.«114881_j12128987644267_1_alg».proof.Proof.Gen.KernelIdeal.Skeleton
import proofs.«114881_j12128987644267_1_alg».proof.Proof.Gen.KernelIdeal.Launch
import proofs.«114881_j12128987644267_1_alg».proof.Proof.Gen.KernelIdeal.Points
import proofs.«114881_j12128987644267_1_alg».proof.Proof.Gen.KernelIdeal.Frame
import proofs.«114881_j12128987644267_1_alg».proof.Proof.Gen.ReferenceIdeal
import proofs.«114881_j12128987644267_1_alg».proof.Proof.Gen.Pre_finite_inputs
import proofs.«114881_j12128987644267_1_alg».proof.Proof.Gen.ReferenceIdeal.Run
import proofs.«114881_j12128987644267_1_alg».proof.Proof.Gen.ReferenceIdeal.Read
import proofs.«114881_j12128987644267_1_alg».proof.Proof.Linear
import proofs.«114881_j12128987644267_1_alg».proof.Proof.Program
import proofs.«114881_j12128987644267_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the three arguments, both programs end with `lin` of those arguments in their result. -/
theorem algebraic : Cert.algebraic_KernelIdeal_ReferenceIdeal := by
  intro m ρ m' ρ' _ hagree
  refine ⟨fun c => Cert.Linear.lin (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Program.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq_lin,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
